-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : IVec S10001x8 32) (main_arg1 : FVec F S50000x300 .f32) (main_arg2 : FVec F S10000x10000 .f32) (main_arg3 : FVec F S300x256 .f32) (main_arg4 : FVec F S256 .f32) (main_arg5 : FVec F S256x256 .f32) (main_arg6 : FVec F S256 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S300x256 .f32 := Host.absf main_arg3
  let main_cst_2 : FVec F S_ .f32 := constant S_ .f32 0x7F800000#32
  let main_v10 : FVec F S300x256 .f32 := broadcastInDim S300x256 ![] bcast_S_S300x256 main_cst_2
  let main_v11 : IVec S300x256 1 := cmpf .olt main_v9 main_v10
  let main_c_3 : IVec S_ 1 := constantI S_ 1 1#1
  let main_v12 : IVec S_ 1 := (fun x v => Host.reduce IntOp.andi x v reducesTo_S300x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S10000x8 : Shape := ⟨2, ![10000, 8]⟩
abbrev S_ : Shape := ⟨0, ![]⟩
abbrev S10000x8x1 : Shape := ⟨3, ![10000, 8, 1]⟩
abbrev S10000x8x300 : Shape := ⟨3, ![10000, 8, 300]⟩
abbrev S10000x300 : Shape := ⟨2, ![10000, 300]⟩
abbrev S10000x256 : Shape := ⟨2, ![10000, 256]⟩
abbrev S1x256 : Shape := ⟨2, ![1, 256]⟩
abbrev S200x10000 : Shape := ⟨2, ![200, 10000]⟩
abbrev S200x256 : Shape := ⟨2, ![200, 256]⟩

abbrev nBuf : Space → Nat
  | .hbm => 27
  | .vmem => 12
  | .smem => 0
  | _ => 0

abbrev bufTy : (tb : Table) → Fin (tcTables nBuf tb) → BufTy
  | .hbm, ⟨0, _⟩ => ⟨S10001x8, .i32⟩
  | .hbm, ⟨1, _⟩ => ⟨S50000x300, .f32⟩
  | .hbm, ⟨2, _⟩ => ⟨S10000x10000, .f32⟩
  | .hbm, ⟨3, _⟩ => ⟨S300x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10000x8, .i32⟩
  | .hbm, ⟨8, _⟩ => ⟨S_, .i32⟩
  | .hbm, ⟨9, _⟩ => ⟨S10000x8, .i32⟩
  | .hbm, ⟨10, _⟩ => ⟨S10000x8, .i1⟩
  | .hbm, ⟨11, _⟩ => ⟨S_, .i32⟩
  | .hbm, ⟨12, _⟩ => ⟨S10000x8, .i32⟩
  | .hbm, ⟨13, _⟩ => ⟨S10000x8, .i32⟩
  | .hbm, ⟨14, _⟩ => ⟨S10000x8, .i32⟩
  | .hbm, ⟨15, _⟩ => ⟨S10000x8x1, .i32⟩
  | .hbm, ⟨16, _⟩ => ⟨S10000x8x300, .f32⟩
  | .hbm, ⟨17, _⟩ => ⟨S_, .f32⟩
  | .hbm, ⟨18, _⟩ => ⟨S10000x300, .f32⟩
  | .hbm, ⟨19, _⟩ => ⟨S10000x256, .f32⟩
  | .hbm, ⟨20, _⟩ => ⟨S10000x256, .bf16⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S10000x256, .bf16⟩
  | .hbm, ⟨25, _⟩ => ⟨S1x256, .f32⟩
  | .hbm, ⟨26, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S10000x256, .bf16⟩
  | .local _ .vmem, ⟨3, _⟩ => ⟨S1x256, .f32⟩
  | .local _ .vmem, ⟨4, _⟩ => ⟨S200x256, .f32⟩
  | .local _ .vmem, ⟨5, _⟩ => ⟨S200x256, .f32⟩
  | .local _ .vmem, ⟨6, _⟩ => ⟨S200x10000, .f32⟩
  | .local _ .vmem, ⟨7, _⟩ => ⟨S200x10000, .f32⟩
  | .local _ .vmem, ⟨8, _⟩ => ⟨S10000x256, .bf16⟩
  | .local _ .vmem, ⟨9, _⟩ => ⟨S1x256, .f32⟩
  | .local _ .vmem, ⟨10, _⟩ => ⟨S200x256, .f32⟩
  | .local _ .vmem, ⟨11, _⟩ => ⟨S200x256, .f32⟩
  | _, _ => ⟨S10001x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S10001x8_S10000x8_1_0 : S10001x8.Slices ![1, 0] S10000x8
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x300_S10000x300_d1 : S10000x8x300.ReducesTo [1] S10000x300
  h_S_ : 0 < S_.numel
  bitsLt_bf16_f32 : FTy.bits .bf16 < FTy.bits .f32
  shapeCasts_S256_S1x256 : S256.ShapeCasts S1x256
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  gather_S50000x300_S10000x8x1_S10000x8x300_2_0_n_n_0_2_1300_wf : GatherDims.WF S50000x300 S10000x8x1 S10000x8x300 [2] [0] [] [0] [] 2 ![1, 300]
  dot_S10000x300_S300x256_S10000x256_1_0_0_1_n_n_wf : DotDims.WF S10000x300 S300x256 S10000x256 [1] [0] [0] [1] [] []
  dot_S200x10000_S10000x256_S200x256_1_0_0_1_n_n_wf : DotDims.WF S200x10000 S10000x256 S200x256 [1] [0] [0] [1] [] []
  dot_S10000x256_S256x256_S10000x256_1_0_0_1_n_n_wf : DotDims.WF S10000x256 S256x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .f32 = 32 ∨ (Rect.block (s := S10000x256) S200x256.size (cc1_transform_3 i) (hinb1_3 i)).WholeWords (EltTy.packing .f32)

variable [Facts₀]

def gather_S50000x300_S10000x8x1_S10000x8x300_2_0_n_n_0_2_1300 : GatherDims S50000x300 S10000x8x1 S10000x8x300 where
  offsetDims := [2]
  collapsedSliceDims := [0]
  operandBatchingDims := []
  startIndicesBatchingDims := []
  startIndexMap := [0]
  indexVectorDim := 2
  sliceSizes := ![1, 300]
  wf := gather_S50000x300_S10000x8x1_S10000x8x300_2_0_n_n_0_2_1300_wf
def dot_S10000x300_S300x256_S10000x256_1_0_0_1_n_n : DotDims S10000x300 S300x256 S10000x256 where
  lhsContracting := [1]
  rhsContracting := [0]
  lhsNonContracting := [0]
  rhsNonContracting := [1]
  lhsBatch := []
  rhsBatch := []
  wf := dot_S10000x300_S300x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10001x8 : Shape := ⟨2, ![10001, 8]⟩
abbrev S50000x300 : Shape := ⟨2, ![50000, 300]⟩
abbrev S10000x10000 : Shape := ⟨2, ![10000, 10000]⟩
abbrev S300x256 : Shape := ⟨2, ![300, 256]⟩
abbrev S256 : Shape := ⟨1, ![256]⟩
abbrev S256x256 : Shape := ⟨2, ![256, 256]⟩
abbrev S10000x8 : Shape := ⟨2, ![10000, 8]⟩
abbrev S_ : Shape := ⟨0, ![]⟩
abbrev S10000x8x1 : Shape := ⟨3, ![10000, 8, 1]⟩
abbrev S10000x8x300 : Shape := ⟨3, ![10000, 8, 300]⟩
abbrev S10000x300 : Shape := ⟨2, ![10000, 300]⟩
abbrev S10000x256 : Shape := ⟨2, ![10000, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S10001x8, .i32⟩
  | .hbm, ⟨1, _⟩ => ⟨S50000x300, .f32⟩
  | .hbm, ⟨2, _⟩ => ⟨S10000x10000, .f32⟩
  | .hbm, ⟨3, _⟩ => ⟨S300x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S10000x8, .i32⟩
  | .hbm, ⟨8, _⟩ => ⟨S_, .i32⟩
  | .hbm, ⟨9, _⟩ => ⟨S10000x8, .i32⟩
  | .hbm, ⟨10, _⟩ => ⟨S10000x8, .i1⟩
  | .hbm, ⟨11, _⟩ => ⟨S_, .i32⟩
  | .hbm, ⟨12, _⟩ => ⟨S10000x8, .i32⟩
  | .hbm, ⟨13, _⟩ => ⟨S10000x8, .i32⟩
  | .hbm, ⟨14, _⟩ => ⟨S10000x8, .i32⟩
  | .hbm, ⟨15, _⟩ => ⟨S10000x8x1, .i32⟩
  | .hbm, ⟨16, _⟩ => ⟨S10000x8x300, .f32⟩
  | .hbm, ⟨17, _⟩ => ⟨S_, .f32⟩
  | .hbm, ⟨18, _⟩ => ⟨S10000x300, .f32⟩
  | .hbm, ⟨19, _⟩ => ⟨S10000x256, .f32⟩
  | .hbm, ⟨20, _⟩ => ⟨S10000x256, .f32⟩
  | .hbm, ⟨21, _⟩ => ⟨S1x256, .f32⟩
  | .hbm, ⟨22, _⟩ => ⟨S10000x256, .f32⟩
  | .hbm, ⟨23, _⟩ => ⟨S10000x256, .f32⟩
  | .hbm, ⟨24, _⟩ => ⟨S_, .f32⟩
  | .hbm, ⟨25, _⟩ => ⟨S10000x256, .f32⟩
  | .hbm, ⟨26, _⟩ => ⟨S10000x256, .i1⟩
  | .hbm, ⟨27, _⟩ => ⟨S_, .f32⟩
  | .hbm, ⟨28, _⟩ => ⟨S10000x256, .f32⟩
  | .hbm, ⟨29, _⟩ => ⟨S10000x256, .f32⟩
  | .hbm, ⟨30, _⟩ => ⟨S10000x256, .f32⟩
  | .hbm, ⟨31, _⟩ => ⟨S10000x256, .f32⟩
  | .hbm, ⟨32, _⟩ => ⟨S10000x256, .f32⟩
  | .hbm, ⟨33, _⟩ => ⟨S1x256, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000x256, .f32⟩
  | .hbm, ⟨38, _⟩ => ⟨S10000x256, .i1⟩
  | .hbm, ⟨39, _⟩ => ⟨S_, .f32⟩
  | .hbm, ⟨40, _⟩ => ⟨S10000x256, .f32⟩
  | .hbm, ⟨41, _⟩ => ⟨S10000x256, .f32⟩
  | .hbm, ⟨42, _⟩ => ⟨S10000x256, .f32⟩
  | _, _ => ⟨S10001x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_v20 : Ref sig .tc := ⟨.hbm, 42, rfl⟩

abbrev nD : Nat := 1
abbrev τ : Topo := Topo.v7x

variable {F : FTy → Type} [FloatOps F]

class Facts₀ : Prop where
  slices_S10001x8_S10000x8_1_0 : S10001x8.Slices ![1, 0] S10000x8
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x300_S10000x300_d1 : S10000x8x300.ReducesTo [1] S10000x300
  h_S_ : 0 < S_.numel
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  gather_S50000x300_S10000x8x1_S10000x8x300_2_0_n_n_0_2_1300_wf : GatherDims.WF S50000x300 S10000x8x1 S10000x8x300 [2] [0] [] [0] [] 2 ![1, 300]
  dot_S10000x300_S300x256_S10000x256_1_0_0_1_n_n_wf : DotDims.WF S10000x300 S300x256 S10000x256 [1] [0] [0] [1] [] []
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def gather_S50000x300_S10000x8x1_S10000x8x300_2_0_n_n_0_2_1300 : GatherDims S50000x300 S10000x8x1 S10000x8x300 where
  offsetDims := [2]
  collapsedSliceDims := [0]
  operandBatchingDims := []
  startIndicesBatchingDims := []
  startIndexMap := [0]
  indexVectorDim := 2
  sliceSizes := ![1, 300]
  wf := gather_S50000x300_S10000x8x1_S10000x8x300_2_0_n_n_0_2_1300_wf
def dot_S10000x300_S300x256_S10000x256_1_0_0_1_n_n : DotDims S10000x300 S300x256 S10000x256 where
  lhsContracting := [1]
  rhsContracting := [0]
  lhsNonContracting := [0]
  rhsNonContracting := [1]
  lhsBatch := []
  rhsBatch := []
  wf := dot_S10000x300_S300x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Layer.lean ====
/-
  One graph-convolution layer, `leaky(A · S + b)`, as ONE function of its three arrays, index by index, and the two
  spellings of it read to that function at the ideal values.

  At row `a` and column `b` the layer is `leaky (∑ c, A[a, c] · S[c, b] + B[b])`, where `leaky v` is `v` when `v ≥ 0` and
  `slope · v` otherwise, the slope being the single-precision word nearest 1/100 read as the number it encodes (both
  programs carry the same word, so its value is never needed). The host spells it as a `dot_general`, a bias
  broadcast first to one row and then down the rows, and the compare / multiply / select of `jax.nn.leaky_relu`. A
  kernel that holds a block of `A`'s rows, all of `S` and the one-row bias spells the same rows as a matrix product
  accumulated into a zero splat — which on the extended reals is the plain sum over the contracted coordinate, as the
  host's product is —, the bias row broadcast down the block's rows, and the same compare / multiply / select on the
  vector unit. A change of float format is the identity on extended reals, so the kernel's narrowing of `A` and its
  narrow `S` read as the numbers themselves. No law of arithmetic beyond `0 + x = x` is used: the two sides are the
  same sum of the same products.
-/
import Idealize.ShloMosaic.Lib.StackMember

noncomputable section

open scoped BigOperators

namespace Cert.Layer

open Idealize.ShloMosaic Idealize.ShloMosaic.ValueIdx Idealize.ShloMosaic.StackMember

/-- The leaky rectifier on one extended real, as both programs compute it: `v` itself where `v ≥ 0`, the slope's
    product with `v` elsewhere. -/
def leaky (v : EReal) : EReal :=
  Scalar.select (Ideal.cmp .oge v (Ideal.ofBits .f32 0x00000000#32)) v (Ideal.ofBits .f32 0x3C23D70A#32 * v)

/-- One layer as one function of the adjacency `A`, the support `S` and the bias `B`: entry `(a, b)` is the leaky
    rectifier of row `a` of `A` against column `b` of `S`, plus `B b`. -/
def layer {n k h : Nat} (A : (⟨2, ![n, k]⟩ : Shape).Idx → EReal) (S : (⟨2, ![k, h]⟩ : Shape).Idx → EReal)
    (B : (⟨1, ![h]⟩ : Shape).Idx → EReal) : (⟨2, ![n, h]⟩ : Shape).Idx → EReal :=
  fun i => leaky ((∑ c : Fin k, A (ix2 (i 0) c) * S (ix2 c (i 1))) + B (ix1 (i 1)))

theorem layer_apply {n k h : Nat} (A : (⟨2, ![n, k]⟩ : Shape).Idx → EReal) (S : (⟨2, ![k, h]⟩ : Shape).Idx → EReal)
    (B : (⟨1, ![h]⟩ : Shape).Idx → EReal) (a : Fin n) (b : Fin h) :
    layer A S B (ix2 a b) = leaky ((∑ c : Fin k, A (ix2 a c) * S (ix2 c b)) + B (ix1 b)) := rfl

/-- A vector broadcast to one row (along axis 1) reads, at column `b` of that row, its entry `b`. -/
theorem rowOf_apply {h : Nat} (h1 : (⟨1, ![h]⟩ : Shape).BroadcastsInDim ⟨2, ![1, h]⟩ ![1])
    (B : (⟨1, ![h]⟩ : Shape).Idx → EReal) (b : Fin h) :
    broadcastInDim ⟨2, ![1, h]⟩ ![1] h1 B (ix2 (0 : Fin 1) b) = B (ix1 b) := by
  refine broadcastInDim_apply ![1] h1 B (ix2 (0 : Fin 1) b) (ix1 b) ?_
  intro a
  match a with
  | ⟨0, _⟩ =>
    show b.val = if h = 1 then 0 else b.val
    split
    · have := b.isLt; omega
    · rfl

/-- THE HOST'S SPELLING: `dot_general`, the bias broadcast to a row and down the rows, `leaky_relu`'s compare, multiply
    and select over broadcast scalars — is the layer. -/
theorem host_eq {n k h : Nat} (d : DotDims ⟨2, ![n, k]⟩ ⟨2, ![k, h]⟩ ⟨2, ![n, h]⟩) (hd : d = DotDims.plain n k h)
    (h1 : (⟨1, ![h]⟩ : Shape).BroadcastsInDim ⟨2, ![1, h]⟩ ![1])
    (h2 : (⟨2, ![1, h]⟩ : Shape).BroadcastsInDim ⟨2, ![n, h]⟩ ![0, 1])
    (h0 : (⟨0, ![]⟩ : Shape).BroadcastsInDim ⟨2, ![n, h]⟩ ![])
    (A : FVec Ideal ⟨2, ![n, k]⟩ .f32) (S : FVec Ideal ⟨2, ![k, h]⟩ .f32) (B : FVec Ideal ⟨1, ![h]⟩ .f32) :
    select
        (cmpf .oge
          (addf (Host.dotGeneral d none A S) (broadcastInDim ⟨2, ![n, h]⟩ ![0, 1] h2 (broadcastInDim ⟨2, ![1, h]⟩ ![1] h1 B)))
          (broadcastInDim ⟨2, ![n, h]⟩ ![] h0 (constant (F := Ideal) ⟨0, ![]⟩ .f32 0x00000000#32)))
        (addf (Host.dotGeneral d none A S) (broadcastInDim ⟨2, ![n, h]⟩ ![0, 1] h2 (broadcastInDim ⟨2, ![1, h]⟩ ![1] h1 B)))
        (mulf (broadcastInDim ⟨2, ![n, h]⟩ ![] h0 (constant (F := Ideal) ⟨0, ![]⟩ .f32 0x3C23D70A#32))
          (addf (Host.dotGeneral d none A S) (broadcastInDim ⟨2, ![n, h]⟩ ![0, 1] h2 (broadcastInDim ⟨2, ![1, h]⟩ ![1] h1 B))))
      = layer A S B := by
  subst hd
  funext i
  obtain ⟨a, b, rfl⟩ : ∃ (a : Fin n) (b : Fin h), i = ix2 a b := ⟨i 0, i 1, eq_ix2 i⟩
  have hv : addf (Host.dotGeneral (DotDims.plain n k h) none A S)
        (broadcastInDim ⟨2, ![n, h]⟩ ![0, 1] h2 (broadcastInDim ⟨2, ![1, h]⟩ ![1] h1 B)) (ix2 a b)
      = (∑ c : Fin k, A (ix2 a c) * S (ix2 c b)) + B (ix1 b) := by
    rw [addf_apply, dotGeneral_plain_apply, broadcastInDim_oneRow_apply, rowOf_apply]
  rw [layer_apply, select_apply, cmpf_apply, mulf_apply, hv, broadcastInDim_constant, broadcastInDim_constant]
  rfl

/-- THE KERNEL'S SPELLING on a block of `n` rows of `A`, all of `S` (held narrow) and the one-row bias: the matrix
    product of the narrowed block into a zero splat, the bias row broadcast down the rows, and the compare / multiply /
    select over splat scalars — is the layer of the block, the support and the row's entries. -/
theorem block_eq {n k h : Nat} (d : DotDims ⟨2, ![n, k]⟩ ⟨2, ![k, h]⟩ ⟨2, ![n, h]⟩) (hd : d = DotDims.plain n k h)
    (hlt : FTy.bits .bf16 < FTy.bits .f32)
    (hc1 : (⟨2, ![k, h]⟩ : Shape).ShapeCasts ⟨2, ![k, h]⟩) (hc2 : (⟨2, ![1, h]⟩ : Shape).ShapeCasts ⟨2, ![1, h]⟩)
    (hb : (⟨2, ![1, h]⟩ : Shape).Broadcasts ⟨2, ![n, h]⟩)
    (x0 : FVec Ideal ⟨2, ![n, k]⟩ .f32) (x1 : FVec Ideal ⟨2, ![k, h]⟩ .bf16) (x2 : FVec Ideal ⟨2, ![1, h]⟩ .f32) :
    select
        (cmpf .oge
          (addf (matmul d none (truncf .bf16 x0 hlt) (shapeCast ⟨2, ![k, h]⟩ x1 hc1) (constant ⟨2, ![n, h]⟩ .f32 0x00000000#32))
            (broadcastTo ⟨2, ![n, h]⟩ (shapeCast ⟨2, ![1, h]⟩ x2 hc2) hb))
          (broadcast ⟨2, ![n, h]⟩ (Scalar.ofBits (F := Ideal) .f32 0x00000000#32)))
        (addf (matmul d none (truncf .bf16 x0 hlt) (shapeCast ⟨2, ![k, h]⟩ x1 hc1) (constant ⟨2, ![n, h]⟩ .f32 0x00000000#32))
          (broadcastTo ⟨2, ![n, h]⟩ (shapeCast ⟨2, ![1, h]⟩ x2 hc2) hb))
        (mulf (broadcast ⟨2, ![n, h]⟩ (Scalar.ofBits (F := Ideal) .f32 0x3C23D70A#32))
          (addf (matmul d none (truncf .bf16 x0 hlt) (shapeCast ⟨2, ![k, h]⟩ x1 hc1) (constant ⟨2, ![n, h]⟩ .f32 0x00000000#32))
            (broadcastTo ⟨2, ![n, h]⟩ (shapeCast ⟨2, ![1, h]⟩ x2 hc2) hb)))
      = layer x0 x1 (fun j => x2 (ix2 (0 : Fin 1) (j 0))) := by
  subst hd
  rw [matmul_zero_eq_dotGeneral, shapeCast_self, shapeCast_self]
  funext i
  obtain ⟨a, b, rfl⟩ : ∃ (a : Fin n) (b : Fin h), i = ix2 a b := ⟨i 0, i 1, eq_ix2 i⟩
  have hrow : broadcastTo ⟨2, ![n, h]⟩ x2 hb (ix2 a b) = x2 (ix2 (0 : Fin 1) b) := by
    refine broadcastTo_apply x2 hb (ix2 a b) (ix2 (0 : Fin 1) b) ?_
    intro ax
    match ax with
    | ⟨0, _⟩ => rfl
    | ⟨1, _⟩ =>
      show b.val = if h = 1 then 0 else b.val
      split
      · have := b.isLt; omega
      · rfl
  have hv : addf (Host.dotGeneral (DotDims.plain n k h) none (truncf .bf16 x0 hlt) x1) (broadcastTo ⟨2, ![n, h]⟩ x2 hb) (ix2 a b)
      = (∑ c : Fin k, x0 (ix2 a c) * x1 (ix2 c b)) + x2 (ix2 (0 : Fin 1) b) := by
    rw [addf_apply, dotGeneral_plain_apply, hrow]
    rfl
  rw [layer_apply, select_apply, cmpf_apply, mulf_apply, hv]
  rfl

end Cert.Layer

end
-- ==== Proof.Region0.lean ====
/-
  What the first pallas_call leaves in its output array, at any contents `V` the region is entered with.

  The grid has fifty points. At point `t` the body loads rows `200 t … 200 t + 199` of the adjacency (all of its
  columns), the whole support array and the whole one-row bias, and stores one block of two hundred rows of the
  output. The stored block is the layer (`Cert.Layer.layer`) of those three loaded values, and a row of the loaded
  adjacency block IS a row of the adjacency array, so the block is rows `200 t … 200 t + 199` of the layer of the whole
  arrays. Every point writes its block back and row `i` lies in block `i / 200`, so the fifty blocks cover the output
  array, which therefore ends holding the layer of the adjacency, the support and the bias row.
-/
import proofs.«173552_j53970559041618_1_alg».proof.Proof.Gen.KernelIdeal.Frame
import proofs.«173552_j53970559041618_1_alg».proof.Proof.Layer
import Idealize.ShloMosaic.Lib.Pipeline.Value

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded values. -/
theorem pay_eq (x0 : Vec Ideal S200x10000 .f32) (x1 : Vec Ideal S10000x256 .bf16) (x2 : Vec Ideal S1x256 .f32) :
    k0_pay1 (F := Ideal) x0 x1 x2 = layer x0 x1 (fun j => x2 (ix2 (0 : Fin 1) (j 0))) := by
  unfold k0_pay1
  exact block_eq dot_S200x10000_S10000x256_S200x256_1_0_0_1_n_n rfl bitsLt_bf16_f32 shapeCasts_S10000x256_S10000x256
    shapeCasts_S1x256_S1x256 broadcasts_S1x256_S200x256 x0 x1 x2

/-- The printed index maps over the grid: the adjacency's and the output's block row is the point's number, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the block of point `t` is row `200 t + r` of the array. -/
def rowAt (t : Fin cfg0.N) (r : Fin 200) : Fin 10000 :=
  ⟨t.val * 200 + r.val, by have h : (t : Nat) < grid0.N := t.isLt; rw [N_0] at h; have := r.isLt; omega⟩

/-- The array the output ends holding: the layer of the adjacency, the support and the bias row as the region finds
    them. -/
def G (c : Dev nD) : Buf (Elt Ideal) ((c : Thread nD τ).loc main_v12) :=
  layer (V c main_arg2 : S10000x10000.Idx → Elt Ideal .f32) (V c main_v10 : S10000x256.Idx → Elt Ideal .bf16)
    (fun j => (V c main_v11 : S1x256.Idx → Elt Ideal .f32) (ix2 (0 : Fin 1) (j 0)))

/-- The adjacency block at point `t`: its row `r` is row `200 t + r` of the array. -/
theorem blk_adj (c : Dev nD) (t : Fin cfg0.N) :
    (iblk0 V c 0 t : Vec Ideal S200x10000 .f32)
      = fun z => (V c main_arg2 : S10000x10000.Idx → Elt Ideal .f32) (ix2 (rowAt t (z 0)) (z 1)) := by
  obtain ⟨e0, e1, -⟩ := idx_facts t
  funext z
  unfold iblk0
  rw [View.read_apply]
  show V c main_arg2 _ = V c main_arg2 _
  refine congrArg (V c main_arg2) ?_
  funext a
  apply Fin.ext
  match a with
  | ⟨0, _⟩ => show win0_0.index t (0 : Fin 2) * 200 + 1 * (z 0).val = t.val * 200 + (z 0).val; rw [e0]; omega
  | ⟨1, _⟩ => show win0_0.index t (1 : Fin 2) * 10000 + 1 * (z 1).val = (z 1).val; rw [e1]; omega

/-- The support's one block is the whole support array. -/
theorem blk_sup (c : Dev nD) (t : Fin cfg0.N) :
    (iblk0 V c 1 t : Vec Ideal S10000x256 .bf16) = (V c main_v10 : S10000x256.Idx → Elt Ideal .bf16) := by
  obtain ⟨-, -, e2, e3, -⟩ := idx_facts t
  funext z
  unfold iblk0
  rw [View.read_apply]
  show V c main_v10 _ = V c main_v10 _
  refine congrArg (V c main_v10) ?_
  funext a
  apply Fin.ext
  match a with
  | ⟨0, _⟩ => show win0_1.index t (0 : Fin 2) * 10000 + 1 * (z 0).val = (z 0).val; rw [e2]; omega
  | ⟨1, _⟩ => show win0_1.index t (1 : Fin 2) * 256 + 1 * (z 1).val = (z 1).val; rw [e3]; omega

/-- The bias row's one block is the whole one-row array. -/
theorem blk_bias (c : Dev nD) (t : Fin cfg0.N) :
    (iblk0 V c 2 t : Vec Ideal S1x256 .f32) = (V c main_v11 : S1x256.Idx → Elt Ideal .f32) := by
  obtain ⟨-, -, -, -, e4, e5, -⟩ := idx_facts t
  funext z
  unfold iblk0
  rw [View.read_apply]
  show V c main_v11 _ = V c main_v11 _
  refine congrArg (V c main_v11) ?_
  funext a
  apply Fin.ext
  match a with
  | ⟨0, _⟩ => show win0_2.index t (0 : Fin 2) * 1 + 1 * (z 0).val = (z 0).val; rw [e4]; omega
  | ⟨1, _⟩ => show win0_2.index t (1 : Fin 2) * 256 + 1 * (z 1).val = (z 1).val; rw [e5]; omega

/-- WHAT POINT `t` WRITES BACK is block `t` of `G`. -/
theorem flushed_eq (c : Dev nD) (t : Fin cfg0.N) :
    (dat0 V c).flushed 3 t = ((cfg0.win 3).blk t).view.read (Elt Ideal) (G V c) := by
  obtain ⟨-, -, -, -, -, -, e6, e7⟩ := idx_facts t
  show (cfg0.win 3).cut (grid0.coords t) ((dat0 V c).after 3 t) = _
  rw [after0_3]
  unfold out0_3
  rw [View.canon_unit_zero hz]
  simp only [View.ld_unit_zero (S := S200x10000) hz, View.ld_unit_zero (S := S10000x256) hz, View.ld_unit_zero (S := S1x256) hz]
  rw [pay_eq, blk_adj, blk_sup, blk_bias]
  funext y
  rw [View.read_apply]
  have hy : ((cfg0.win 3).blk t).view.emb y = ix2 (rowAt t (y 0)) (y 1) := by
    funext a
    apply Fin.ext
    match a with
    | ⟨0, _⟩ => show win0_3.index t (0 : Fin 2) * 200 + 1 * (y 0).val = t.val * 200 + (y 0).val; rw [e6]; omega
    | ⟨1, _⟩ => show win0_3.index t (1 : Fin 2) * 256 + 1 * (y 1).val = (y 1).val; rw [e7]; omega
  rw [hy]
  rfl

/-- Every index of the output array is in some point's block: row `i` is in block `i / 200`. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hlt : (i 0).val / 200 < grid0.N := by rw [N_0]; omega
  obtain ⟨-, -, -, -, -, -, e6, e7⟩ := idx_facts ⟨(i 0).val / 200, hlt⟩
  refine ⟨⟨(i 0).val / 200, hlt⟩, flush0_3 _, ?_⟩
  show i ∈ ((View.whole main_v12).slice (win0_3.rect ⟨(i 0).val / 200, hlt⟩)).set
  rw [View.set_slice_whole, Rect.mem_set_unit]
  intro a
  match a with
  | ⟨0, _⟩ =>
    show win0_3.index ⟨(i 0).val / 200, hlt⟩ (0 : Fin 2) * 200 ≤ (i 0).val
      ∧ (i 0).val < win0_3.index ⟨(i 0).val / 200, hlt⟩ (0 : Fin 2) * 200 + 200
    rw [e6]; show (i 0).val / 200 * 200 ≤ (i 0).val ∧ (i 0).val < (i 0).val / 200 * 200 + 200; omega
  | ⟨1, _⟩ =>
    show win0_3.index ⟨(i 0).val / 200, hlt⟩ (1 : Fin 2) * 256 ≤ (i 1).val
      ∧ (i 1).val < win0_3.index ⟨(i 0).val / 200, hlt⟩ (1 : Fin 2) * 256 + 256
    rw [e7]; omega

/-- THE OUTPUT ARRAY after the region: the layer of the arrays the region was entered with. -/
theorem arr_eq (c : Dev nD) : (dat0 V c).arrAt 3 cfg0.N = G V c :=
  (dat0 V c).arrAt_eq_of_cover 3 (G V c) (fun t _ => flushed_eq V c t) (cover)

/-- The same with the three arrays the region was entered with NAMED. -/
theorem arr_of (c : Dev nD) (A : S10000x10000.Idx → Elt Ideal .f32) (S : S10000x256.Idx → Elt Ideal .bf16)
    (B : S1x256.Idx → Elt Ideal .f32) (hA : V c main_arg2 = A) (hS : V c main_v10 = S) (hB : V c main_v11 = B) :
    (dat0 V c).arrAt 3 cfg0.N = layer A S (fun j => B (ix2 (0 : Fin 1) (j 0))) := by
  subst hA hS hB
  exact arr_eq V c

end Cert.KernelIdeal.Region0

end
-- ==== Proof.Region1.lean ====
/-
  What the second pallas_call leaves in its output array, at any contents `V` the region is entered with.

  The grid has fifty points. At point `t` the body loads rows `200 t … 200 t + 199` of the adjacency (all of its
  columns), the whole support array and the whole one-row bias, and stores one block of two hundred rows of the
  output. The stored block is the layer (`Cert.Layer.layer`) of those three loaded values, and a row of the loaded
  adjacency block IS a row of the adjacency array, so the block is rows `200 t … 200 t + 199` of the layer of the whole
  arrays. Every point writes its block back and row `i` lies in block `i / 200`, so the fifty blocks cover the output
  array, which therefore ends holding the layer of the adjacency, the support and the bias row.
-/
import proofs.«173552_j53970559041618_1_alg».proof.Proof.Gen.KernelIdeal.Frame
import proofs.«173552_j53970559041618_1_alg».proof.Proof.Layer
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its three loaded values. -/
theorem pay_eq (x0 : Vec Ideal S200x10000 .f32) (x1 : Vec Ideal S10000x256 .bf16) (x2 : Vec Ideal S1x256 .f32) :
    k1_pay1 (F := Ideal) x0 x1 x2 = layer x0 x1 (fun j => x2 (ix2 (0 : Fin 1) (j 0))) := by
  unfold k1_pay1
  exact block_eq dot_S200x10000_S10000x256_S200x256_1_0_0_1_n_n rfl bitsLt_bf16_f32 shapeCasts_S10000x256_S10000x256
    shapeCasts_S1x256_S1x256 broadcasts_S1x256_S200x256 x0 x1 x2

/-- The printed index maps over the grid: the adjacency's and the output's block row is the point's number, every
    other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of the block of point `t` is row `200 t + r` of the array. -/
def rowAt (t : Fin cfg1.N) (r : Fin 200) : Fin 10000 :=
  ⟨t.val * 200 + r.val, by have h : (t : Nat) < grid1.N := t.isLt; rw [N_1] at h; have := r.isLt; omega⟩

/-- The array the output ends holding: the layer of the adjacency, the support and the bias row as the region finds
    them. -/
def G (c : Dev nD) : Buf (Elt Ideal) ((c : Thread nD τ).loc main_v16) :=
  layer (V c main_arg2 : S10000x10000.Idx → Elt Ideal .f32) (V c main_v14 : S10000x256.Idx → Elt Ideal .bf16)
    (fun j => (V c main_v15 : S1x256.Idx → Elt Ideal .f32) (ix2 (0 : Fin 1) (j 0)))

/-- The adjacency block at point `t`: its row `r` is row `200 t + r` of the array. -/
theorem blk_adj (c : Dev nD) (t : Fin cfg1.N) :
    (iblk1 V c 0 t : Vec Ideal S200x10000 .f32)
      = fun z => (V c main_arg2 : S10000x10000.Idx → Elt Ideal .f32) (ix2 (rowAt t (z 0)) (z 1)) := by
  obtain ⟨e0, e1, -⟩ := idx_facts t
  funext z
  unfold iblk1
  rw [View.read_apply]
  show V c main_arg2 _ = V c main_arg2 _
  refine congrArg (V c main_arg2) ?_
  funext a
  apply Fin.ext
  match a with
  | ⟨0, _⟩ => show win1_0.index t (0 : Fin 2) * 200 + 1 * (z 0).val = t.val * 200 + (z 0).val; rw [e0]; omega
  | ⟨1, _⟩ => show win1_0.index t (1 : Fin 2) * 10000 + 1 * (z 1).val = (z 1).val; rw [e1]; omega

/-- The support's one block is the whole support array. -/
theorem blk_sup (c : Dev nD) (t : Fin cfg1.N) :
    (iblk1 V c 1 t : Vec Ideal S10000x256 .bf16) = (V c main_v14 : S10000x256.Idx → Elt Ideal .bf16) := by
  obtain ⟨-, -, e2, e3, -⟩ := idx_facts t
  funext z
  unfold iblk1
  rw [View.read_apply]
  show V c main_v14 _ = V c main_v14 _
  refine congrArg (V c main_v14) ?_
  funext a
  apply Fin.ext
  match a with
  | ⟨0, _⟩ => show win1_1.index t (0 : Fin 2) * 10000 + 1 * (z 0).val = (z 0).val; rw [e2]; omega
  | ⟨1, _⟩ => show win1_1.index t (1 : Fin 2) * 256 + 1 * (z 1).val = (z 1).val; rw [e3]; omega

/-- The bias row's one block is the whole one-row array. -/
theorem blk_bias (c : Dev nD) (t : Fin cfg1.N) :
    (iblk1 V c 2 t : Vec Ideal S1x256 .f32) = (V c main_v15 : S1x256.Idx → Elt Ideal .f32) := by
  obtain ⟨-, -, -, -, e4, e5, -⟩ := idx_facts t
  funext z
  unfold iblk1
  rw [View.read_apply]
  show V c main_v15 _ = V c main_v15 _
  refine congrArg (V c main_v15) ?_
  funext a
  apply Fin.ext
  match a with
  | ⟨0, _⟩ => show win1_2.index t (0 : Fin 2) * 1 + 1 * (z 0).val = (z 0).val; rw [e4]; omega
  | ⟨1, _⟩ => show win1_2.index t (1 : Fin 2) * 256 + 1 * (z 1).val = (z 1).val; rw [e5]; omega

/-- WHAT POINT `t` WRITES BACK is block `t` of `G`. -/
theorem flushed_eq (c : Dev nD) (t : Fin cfg1.N) :
    (dat1 V c).flushed 3 t = ((cfg1.win 3).blk t).view.read (Elt Ideal) (G V c) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S200x10000) hz, View.ld_unit_zero (S := S10000x256) hz, View.ld_unit_zero (S := S1x256) hz]
  rw [pay_eq, blk_adj, blk_sup, blk_bias]
  funext y
  rw [View.read_apply]
  have hy : ((cfg1.win 3).blk t).view.emb y = ix2 (rowAt t (y 0)) (y 1) := by
    funext a
    apply Fin.ext
    match a with
    | ⟨0, _⟩ => show win1_3.index t (0 : Fin 2) * 200 + 1 * (y 0).val = t.val * 200 + (y 0).val; rw [e6]; omega
    | ⟨1, _⟩ => show win1_3.index t (1 : Fin 2) * 256 + 1 * (y 1).val = (y 1).val; rw [e7]; omega
  rw [hy]
  rfl

/-- Every index of the output array is in some point's block: row `i` is in block `i / 200`. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hlt : (i 0).val / 200 < grid1.N := by rw [N_1]; omega
  obtain ⟨-, -, -, -, -, -, e6, e7⟩ := idx_facts ⟨(i 0).val / 200, hlt⟩
  refine ⟨⟨(i 0).val / 200, hlt⟩, flush1_3 _, ?_⟩
  show i ∈ ((View.whole main_v16).slice (win1_3.rect ⟨(i 0).val / 200, hlt⟩)).set
  rw [View.set_slice_whole, Rect.mem_set_unit]
  intro a
  match a with
  | ⟨0, _⟩ =>
    show win1_3.index ⟨(i 0).val / 200, hlt⟩ (0 : Fin 2) * 200 ≤ (i 0).val
      ∧ (i 0).val < win1_3.index ⟨(i 0).val / 200, hlt⟩ (0 : Fin 2) * 200 + 200
    rw [e6]; show (i 0).val / 200 * 200 ≤ (i 0).val ∧ (i 0).val < (i 0).val / 200 * 200 + 200; omega
  | ⟨1, _⟩ =>
    show win1_3.index ⟨(i 0).val / 200, hlt⟩ (1 : Fin 2) * 256 ≤ (i 1).val
      ∧ (i 1).val < win1_3.index ⟨(i 0).val / 200, hlt⟩ (1 : Fin 2) * 256 + 256
    rw [e7]; omega

/-- THE OUTPUT ARRAY after the region: the layer of the arrays the region was entered with. -/
theorem arr_eq (c : Dev nD) : (dat1 V c).arrAt 3 cfg1.N = G V c :=
  (dat1 V c).arrAt_eq_of_cover 3 (G V c) (fun t _ => flushed_eq V c t) (cover)

/-- The same with the three arrays the region was entered with NAMED. -/
theorem arr_of (c : Dev nD) (A : S10000x10000.Idx → Elt Ideal .f32) (S : S10000x256.Idx → Elt Ideal .bf16)
    (B : S1x256.Idx → Elt Ideal .f32) (hA : V c main_arg2 = A) (hS : V c main_v14 = S) (hB : V c main_v15 = B) :
    (dat1 V c).arrAt 3 cfg1.N = layer A S (fun j => B (ix2 (0 : Fin 1) (j 0))) := by
  subst hA hS hB
  exact arr_eq V c

end Cert.KernelIdeal.Region1

end
-- ==== Proof.KernelValue.lean ====
/-
  What the idealized kernel program computes, as one term of its seven argument arrays.

  @main is a stretch of host operations, the first pallas_call, a second stretch, the second pallas_call. The first
  stretch builds each node's embedding times `W1` (`support1`, narrowed to half width, which at the ideal values
  changes nothing: a change of float format is the identity on extended reals) and recasts the bias `b1` as one row; the first call leaves in its output the layer of the
  adjacency, that support and that row (`Region0`). The second stretch multiplies this by `W2`, narrows, and recasts
  `b2`; the second call leaves the layer of the adjacency, the new support and the new row (`Region1`). No host
  operation writes the adjacency or a weight, and a pallas_call leaves its input arrays as it found them, so each
  region meets the launch's adjacency. The run's post reads the result buffer at the last segment boundary
  (`Run.run_named`), which is the second call's output array.
-/
import proofs.«173552_j53970559041618_1_alg».proof.Proof.KernelRun
import proofs.«173552_j53970559041618_1_alg».proof.Proof.Region0
import proofs.«173552_j53970559041618_1_alg».proof.Proof.Region1
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Layer

section Terms
variable {F : FTy → Type} [FloatOps F]

/-- The word indices the gather reads: rows `1 …` of the table, a negative entry wrapped by the vocabulary's size. -/
abbrev wordIdx (a0 : (⟨S10001x8, .i32⟩ : BufTy).Contents (Elt F)) : (⟨S10000x8, .i32⟩ : BufTy).Contents (Elt F) :=
  select
    (cmpi .slt (extractStridedSlice S10000x8 ![1, 0] a0 slices_S10001x8_S10000x8_1_0) (broadcastInDim S10000x8 ![] bcast_S_S10000x8 (constantI S_ 32 0#32)))
    (addi (extractStridedSlice S10000x8 ![1, 0] a0 slices_S10001x8_S10000x8_1_0) (broadcastInDim S10000x8 ![] bcast_S_S10000x8 (constantI S_ 32 50000#32)))
    (extractStridedSlice S10000x8 ![1, 0] a0 slices_S10001x8_S10000x8_1_0)

/-- The first layer's support before narrowing: each node's embedding (the maximum over its words' rows of the
    table) times `W1`. -/
abbrev support1 (a0 : (⟨S10001x8, .i32⟩ : BufTy).Contents (Elt F)) (a1 : (⟨S50000x300, .f32⟩ : BufTy).Contents (Elt F)) (w1 : (⟨S300x256, .f32⟩ : BufTy).Contents (Elt F)) : (⟨S10000x256, .f32⟩ : BufTy).Contents (Elt F) :=
  Host.dotGeneral dot_S10000x300_S300x256_S10000x256_1_0_0_1_n_n none
    (Host.reduce FloatOps.maximumf
      (Host.gather gather_S50000x300_S10000x8x1_S10000x8x300_2_0_n_n_0_2_1300 a1
        (broadcastInDim S10000x8x1 ![0, 1] bcast_S10000x8_S10000x8x1_0_1 (wordIdx a0)))
      (constant S_ .f32 0xFF800000#32) reducesTo_S10000x8x300_S10000x300_d1 h_S_)
    w1

end Terms

/-- The kernel program's result as a function of its seven arguments, at the ideal values. -/
def kOut (a0 : (⟨S10001x8, .i32⟩ : BufTy).Contents (Elt Ideal)) (a1 : FVec Ideal S50000x300 .f32) (A : FVec Ideal S10000x10000 .f32)
    (w1 : FVec Ideal S300x256 .f32) (b1 : FVec Ideal S256 .f32) (w2 : FVec Ideal S256x256 .f32) (b2 : FVec Ideal S256 .f32) :
    S10000x256.Idx → EReal :=
  layer A
    (Host.dotGeneral (F := Ideal) (φ₁ := .f32) (φ₂ := .f32) dot_S10000x256_S256x256_S10000x256_1_0_0_1_n_n none
      (layer A (support1 a0 a1 w1) (fun j => shapeCast S1x256 b1 shapeCasts_S256_S1x256 (ix2 (0 : Fin 1) (j 0)))
        : FVec Ideal S10000x256 .f32)
      w2)
    (fun j => shapeCast S1x256 b2 shapeCasts_S256_S1x256 (ix2 (0 : Fin 1) (j 0)))

variable (m : (ℓ : Loc nD τ sig) → Buf (Elt Ideal) ℓ) (ρ : Dev nD → PrngReg)

/-! ## The first region's entry contents: the first host stretch over the launch memory -/

theorem V1_adj (c : Dev nD) : V1 m ρ c main_arg2 = (m ((c : Thread nD τ).loc main_arg2)) := by
  show StableHlo.after hostOps0 (W0 m ρ c) (Proc.devRef .tc main_arg2) = _
  after_results

attribute [local irreducible] Host.reduce Host.gather in
theorem V1_sup (c : Dev nD) :
    V1 m ρ c main_v10 = support1 (m ((c : Thread nD τ).loc main_arg0)) (m ((c : Thread nD τ).loc main_arg1)) (m ((c : Thread nD τ).loc main_arg3)) := by
  show StableHlo.after hostOps0 (W0 m ρ c) (Proc.devRef .tc main_v10) = _
  after_results
  rfl

theorem V1_bias (c : Dev nD) : V1 m ρ c main_v11 = shapeCast S1x256 (m ((c : Thread nD τ).loc main_arg4)) shapeCasts_S256_S1x256 := by
  show StableHlo.after hostOps0 (W0 m ρ c) (Proc.devRef .tc main_v11) = _
  after_results
  rfl

/-- After the first region its output array holds the first layer. -/
theorem W2_out (c : Dev nD) :
    W2 m ρ c (Proc.devRef .tc main_v12)
      = layer (m ((c : Thread nD τ).loc main_arg2)) (support1 (m ((c : Thread nD τ).loc main_arg0)) (m ((c : Thread nD τ).loc main_arg1)) (m ((c : Thread nD τ).loc main_arg3)))
          (fun j => shapeCast S1x256 (m ((c : Thread nD τ).loc main_arg4)) shapeCasts_S256_S1x256 (ix2 (0 : Fin 1) (j 0))) :=
  (W2_arr m ρ c 3).trans (Region0.arr_of (V1 m ρ) c _ _ _ (V1_adj m ρ c) (V1_sup m ρ c) (V1_bias m ρ c))

/-- The first region leaves the adjacency, and every array that is not one of its own, as it found it. -/
theorem W2_adj (c : Dev nD) : W2 m ρ c (Proc.devRef .tc main_arg2) = (m ((c : Thread nD τ).loc main_arg2)) :=
  ((W2_arr m ρ c 0).trans (((dat0 (V1 m ρ) c).arrAt_in 0 rfl _).trans (A_eq0 (V1 m ρ) c 0))).trans (V1_adj m ρ c)

theorem W2_w2 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)

theorem W2_b2 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)

/-! ## The second region's entry contents: the second host stretch over the first region's exit -/

theorem V3_adj (c : Dev nD) : V3 m ρ c main_arg2 = (m ((c : Thread nD τ).loc main_arg2)) := by
  show StableHlo.after hostOps1 (W2 m ρ c) (Proc.devRef .tc main_arg2) = _
  after_results
  exact W2_adj m ρ c

theorem V3_sup (c : Dev nD) :
    (V3 m ρ c main_v14 : S10000x256.Idx → EReal)
      = Host.dotGeneral (F := Ideal) (φ₁ := .f32) (φ₂ := .f32) dot_S10000x256_S256x256_S10000x256_1_0_0_1_n_n none
          (layer (m ((c : Thread nD τ).loc main_arg2)) (support1 (m ((c : Thread nD τ).loc main_arg0)) (m ((c : Thread nD τ).loc main_arg1)) (m ((c : Thread nD τ).loc main_arg3)))
            (fun j => shapeCast S1x256 (m ((c : Thread nD τ).loc main_arg4)) shapeCasts_S256_S1x256 (ix2 (0 : Fin 1) (j 0)))
            : FVec Ideal S10000x256 .f32)
          (m ((c : Thread nD τ).loc main_arg5)) := by
  show StableHlo.after hostOps1 (W2 m ρ c) (Proc.devRef .tc main_v14) = _
  after_results
  rw [W2_out, W2_w2]
  rfl

theorem V3_bias (c : Dev nD) : V3 m ρ c main_v15 = shapeCast S1x256 (m ((c : Thread nD τ).loc main_arg6)) shapeCasts_S256_S1x256 := by
  show StableHlo.after hostOps1 (W2 m ρ c) (Proc.devRef .tc main_v15) = _
  after_results
  rw [W2_b2]
  rfl

/-- After the second region its output array — the program's result — holds `kOut` of the arguments. -/
theorem W4_out (c : Dev nD) :
    W4 m ρ c (Proc.devRef .tc main_v16)
      = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 3).trans (Region1.arr_of (V3 m ρ) c _ _ _ (V3_adj m ρ c) (V3_sup m ρ c) (V3_bias m ρ c))

/-- The run, read: the result buffer at `kOut` of the arguments, the arguments unchanged. -/
theorem run : θ_run defs (onTc (τ := τ) (main (F := Ideal))) ⟨m, fun _ => 0, ρ⟩ (fun r => ∀ c : Dev nD,
      r.2.mem ((c.tc : Thread nD τ).loc main_v16)
          = kOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_out m ρ c), (h c).2⟩) (Run.run_named m ρ)

end Cert.KernelIdeal.Val

end
-- ==== Proof.RefRun.lean ====
/-
  The reference's @main as one straight line of host operations, and its run.

  The reference calls `leaky_relu` twice, and `leaky_relu` calls `_where`; a call means its callee's body run on the
  call's operands and into the call's own buffers, so each call is written out here as the seven operations it stands
  for: the zero and its broadcast, the comparison `x ≥ 0`, the slope and its broadcast, the product `slope · x`, and the
  select between `x` and the product. With the seventeen operations before the first call, the five between the calls
  and the two calls' fourteen, @main is thirty-six operations; every weakly fair execution of it terminates with each
  buffer at the fold of those operations over the launch contents.
-/
import proofs.«173552_j53970559041618_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's thirty-six operations in order, the two calls of `leaky_relu` (and, inside each, of `_where`) written out
    over the calls' buffer records. -/
abbrev ops : List (HloOp τ sig (Elt F)) :=
  [ unary main_arg0 main_v0 ((extractStridedSlice S10000x8 ![1, 0] · slices_S10001x8_S10000x8_1_0) : (⟨S10001x8, .i32⟩ : BufTy).Contents (Elt F) → (⟨S10000x8, .i32⟩ : BufTy).Contents (Elt F)),
    nullary main_c (constantI S_ 32 0#32),
    unary main_c main_v1 (broadcastInDim S10000x8 ![] bcast_S_S10000x8 : (⟨S_, .i32⟩ : BufTy).Contents (Elt F) → (⟨S10000x8, .i32⟩ : BufTy).Contents (Elt F)),
    binary main_v0 main_v1 main_v2 (cmpi .slt : (⟨S10000x8, .i32⟩ : BufTy).Contents (Elt F) → (⟨S10000x8, .i32⟩ : BufTy).Contents (Elt F) → (⟨S10000x8, .i1⟩ : BufTy).Contents (Elt F)),
    nullary main_c_0 (constantI S_ 32 50000#32),
    unary main_c_0 main_v3 (broadcastInDim S10000x8 ![] bcast_S_S10000x8 : (⟨S_, .i32⟩ : BufTy).Contents (Elt F) → (⟨S10000x8, .i32⟩ : BufTy).Contents (Elt F)),
    binary main_v0 main_v3 main_v4 (addi : (⟨S10000x8, .i32⟩ : BufTy).Contents (Elt F) → (⟨S10000x8, .i32⟩ : BufTy).Contents (Elt F) → (⟨S10000x8, .i32⟩ : BufTy).Contents (Elt F)),
    ternary main_v2 main_v4 main_v0 main_v5 (select : (⟨S10000x8, .i1⟩ : BufTy).Contents (Elt F) → (⟨S10000x8, .i32⟩ : BufTy).Contents (Elt F) → (⟨S10000x8, .i32⟩ : BufTy).Contents (Elt F) → (⟨S10000x8, .i32⟩ : BufTy).Contents (Elt F)),
    unary main_v5 main_v6 (broadcastInDim S10000x8x1 ![0, 1] bcast_S10000x8_S10000x8x1_0_1 : (⟨S10000x8, .i32⟩ : BufTy).Contents (Elt F) → (⟨S10000x8x1, .i32⟩ : BufTy).Contents (Elt F)),
    binary main_arg1 main_v6 main_v7 ((fun x i => Host.gather gather_S50000x300_S10000x8x1_S10000x8x300_2_0_n_n_0_2_1300 x i) : (⟨S50000x300, .f32⟩ : BufTy).Contents (Elt F) → (⟨S10000x8x1, .i32⟩ : BufTy).Contents (Elt F) → (⟨S10000x8x300, .f32⟩ : BufTy).Contents (Elt F)),
    nullary main_cst (constant S_ .f32 0xFF800000#32),
    binary main_v7 main_cst main_v8 ((fun x v => Host.reduce FloatOps.maximumf x v reducesTo_S10000x8x300_S10000x300_d1 h_S_) : (⟨S10000x8x300, .f32⟩ : BufTy).Contents (Elt F) → (⟨S_, .f32⟩ : BufTy).Contents (Elt F) → (⟨S10000x300, .f32⟩ : BufTy).Contents (Elt F)),
    binary main_v8 main_arg3 main_v9 ((fun l r => Host.dotGeneral dot_S10000x300_S300x256_S10000x256_1_0_0_1_n_n none l r) : (⟨S10000x300, .f32⟩ : BufTy).Contents (Elt F) → (⟨S300x256, .f32⟩ : BufTy).Contents (Elt F) → (⟨S10000x256, .f32⟩ : BufTy).Contents (Elt F)),
    binary main_arg2 main_v9 main_v10 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg4 main_v11 (broadcastInDim S1x256 ![1] bcast_S256_S1x256_1 : (⟨S256, .f32⟩ : BufTy).Contents (Elt F) → (⟨S1x256, .f32⟩ : BufTy).Contents (Elt F)),
    unary main_v11 main_v12 (broadcastInDim S10000x256 ![0, 1] bcast_S1x256_S10000x256_0_1 : (⟨S1x256, .f32⟩ : BufTy).Contents (Elt F) → (⟨S10000x256, .f32⟩ : BufTy).Contents (Elt F)),
    binary main_v10 main_v12 main_v13 (addf : (⟨S10000x256, .f32⟩ : BufTy).Contents (Elt F) → (⟨S10000x256, .f32⟩ : BufTy).Contents (Elt F) → (⟨S10000x256, .f32⟩ : BufTy).Contents (Elt F)),
    TRef.nullary main_call0.cst (constant S_ .f32 0x00000000#32),
    TRef.unary main_call0.cst main_call0.v0 (broadcastInDim S10000x256 ![] bcast_S_S10000x256),
    TRef.binary (.of main_v13) main_call0.v0 main_call0.v1 (cmpf .oge),
    TRef.nullary main_call0.cst_0 (constant S_ .f32 0x3C23D70A#32),
    TRef.unary main_call0.cst_0 main_call0.v2 (broadcastInDim S10000x256 ![] bcast_S_S10000x256),
    TRef.binary main_call0.v2 (.of main_v13) main_call0.v3 mulf,
    TRef.ternary main_call0.v1 (.of main_v13) main_call0.v3 main_call0.call0.v0 select,
    binary main_v14 main_arg5 main_v15 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    binary main_arg2 main_v15 main_v16 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)),
    unary main_arg6 main_v17 (broadcastInDim S1x256 ![1] bcast_S256_S1x256_1 : (⟨S256, .f32⟩ : BufTy).Contents (Elt F) → (⟨S1x256, .f32⟩ : BufTy).Contents (Elt F)),
    unary main_v17 main_v18 (broadcastInDim S10000x256 ![0, 1] bcast_S1x256_S10000x256_0_1 : (⟨S1x256, .f32⟩ : BufTy).Contents (Elt F) → (⟨S10000x256, .f32⟩ : BufTy).Contents (Elt F)),
    binary main_v16 main_v18 main_v19 (addf : (⟨S10000x256, .f32⟩ : BufTy).Contents (Elt F) → (⟨S10000x256, .f32⟩ : BufTy).Contents (Elt F) → (⟨S10000x256, .f32⟩ : BufTy).Contents (Elt F)),
    TRef.nullary main_call1.cst (constant S_ .f32 0x00000000#32),
    TRef.unary main_call1.cst main_call1.v0 (broadcastInDim S10000x256 ![] bcast_S_S10000x256),
    TRef.binary (.of main_v19) main_call1.v0 main_call1.v1 (cmpf .oge),
    TRef.nullary main_call1.cst_0 (constant S_ .f32 0x3C23D70A#32),
    TRef.unary main_call1.cst_0 main_call1.v2 (broadcastInDim S10000x256 ![] bcast_S_S10000x256),
    TRef.binary main_call1.v2 (.of main_v19) main_call1.v3 mulf,
    TRef.ternary main_call1.v1 (.of main_v19) main_call1.v3 main_call1.call0.v0 select ]

-- thirty-six binds re-associated: the rewrite under the chain recurses once per statement
set_option maxRecDepth 2048 in
/-- @main is that straight line: the two functions' bodies unfolded at their calls, and sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- From any memory with zero counters every weakly fair execution of @main terminates, and each TensorCore buffer ends
    at the fold of the thirty-six operations over the launch contents. -/
theorem run_bufs (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.RefValue.lean ====
/-
  What the reference computes, as one term of its seven argument arrays, and that term at the ideal values.

  The reference takes rows `1 …` of the word-index table, wraps a negative index by the vocabulary's size, gathers the
  indexed rows of the embedding table, takes the maximum over each node's eight words, and multiplies by `W1`
  (`support1`); then twice: the adjacency times the support, plus the bias broadcast to every row, through the leaky
  rectifier (`hostLayer`), with a product by `W2` between the two. Reading the run's fold of operations at the result
  buffer gives exactly that composition (`out_eq`), and no operation writes an argument buffer (`argK_eq`). At the
  ideal values each `hostLayer` is the layer function of `Cert.Layer` (`hostLayer_eq`).
-/
import proofs.«173552_j53970559041618_1_alg».proof.Proof.RefRun
import proofs.«173552_j53970559041618_1_alg».proof.Proof.Layer

noncomputable section

namespace Cert.ReferenceIdeal.Val

open Cert.ReferenceIdeal Cert.ReferenceIdeal.Gen Cert.ReferenceIdeal.Line Idealize.ShloMosaic Idealize.ShloMosaic.TcCoe Idealize.SL.Sem
  Idealize.ShloMosaic.StableHlo Cert.Layer

variable {F : FTy → Type} [FloatOps F]

/-- The word indices the gather reads: rows `1 …` of the table, a negative entry wrapped by the vocabulary's size. -/
abbrev wordIdx (a0 : (⟨S10001x8, .i32⟩ : BufTy).Contents (Elt F)) : (⟨S10000x8, .i32⟩ : BufTy).Contents (Elt F) :=
  select
    (cmpi .slt (extractStridedSlice S10000x8 ![1, 0] a0 slices_S10001x8_S10000x8_1_0) (broadcastInDim S10000x8 ![] bcast_S_S10000x8 (constantI S_ 32 0#32)))
    (addi (extractStridedSlice S10000x8 ![1, 0] a0 slices_S10001x8_S10000x8_1_0) (broadcastInDim S10000x8 ![] bcast_S_S10000x8 (constantI S_ 32 50000#32)))
    (extractStridedSlice S10000x8 ![1, 0] a0 slices_S10001x8_S10000x8_1_0)

/-- The first layer's support: each node's embedding (the maximum over its words' rows of the table) times `W1`. -/
abbrev support1 (a0 : (⟨S10001x8, .i32⟩ : BufTy).Contents (Elt F)) (a1 : (⟨S50000x300, .f32⟩ : BufTy).Contents (Elt F)) (w1 : (⟨S300x256, .f32⟩ : BufTy).Contents (Elt F)) : (⟨S10000x256, .f32⟩ : BufTy).Contents (Elt F) :=
  Host.dotGeneral dot_S10000x300_S300x256_S10000x256_1_0_0_1_n_n none
    (Host.reduce FloatOps.maximumf
      (Host.gather gather_S50000x300_S10000x8x1_S10000x8x300_2_0_n_n_0_2_1300 a1
        (broadcastInDim S10000x8x1 ![0, 1] bcast_S10000x8_S10000x8x1_0_1 (wordIdx a0)))
      (constant S_ .f32 0xFF800000#32) reducesTo_S10000x8x300_S10000x300_d1 h_S_)
    w1

/-- One layer as the host spells it: the adjacency times the support, plus the bias broadcast to a row and down the
    rows, through `leaky_relu`'s compare, multiply and select. -/
abbrev hostLayer (A : (⟨S10000x10000, .f32⟩ : BufTy).Contents (Elt F)) (S : (⟨S10000x256, .f32⟩ : BufTy).Contents (Elt F)) (b : (⟨S256, .f32⟩ : BufTy).Contents (Elt F)) : (⟨S10000x256, .f32⟩ : BufTy).Contents (Elt F) :=
  select
    (cmpf .oge
      (addf (Host.dotGeneral dot_S10000x10000_S10000x256_S10000x256_1_0_0_1_n_n none A S)
        (broadcastInDim S10000x256 ![0, 1] bcast_S1x256_S10000x256_0_1 (broadcastInDim S1x256 ![1] bcast_S256_S1x256_1 b)))
      (broadcastInDim S10000x256 ![] bcast_S_S10000x256 (constant S_ .f32 0x00000000#32)))
    (addf (Host.dotGeneral dot_S10000x10000_S10000x256_S10000x256_1_0_0_1_n_n none A S)
      (broadcastInDim S10000x256 ![0, 1] bcast_S1x256_S10000x256_0_1 (broadcastInDim S1x256 ![1] bcast_S256_S1x256_1 b)))
    (mulf (broadcastInDim S10000x256 ![] bcast_S_S10000x256 (constant S_ .f32 0x3C23D70A#32))
      (addf (Host.dotGeneral dot_S10000x10000_S10000x256_S10000x256_1_0_0_1_n_n none A S)
        (broadcastInDim S10000x256 ![0, 1] bcast_S1x256_S10000x256_0_1 (broadcastInDim S1x256 ![1] bcast_S256_S1x256_1 b))))

/-- The reference's result as a function of its seven arguments. -/
abbrev refOut (a0 : (⟨S10001x8, .i32⟩ : BufTy).Contents (Elt F)) (a1 : (⟨S50000x300, .f32⟩ : BufTy).Contents (Elt F)) (A : (⟨S10000x10000, .f32⟩ : BufTy).Contents (Elt F)) (w1 : (⟨S300x256, .f32⟩ : BufTy).Contents (Elt F))
    (b1 : (⟨S256, .f32⟩ : BufTy).Contents (Elt F)) (w2 : (⟨S256x256, .f32⟩ : BufTy).Contents (Elt F)) (b2 : (⟨S256, .f32⟩ : BufTy).Contents (Elt F)) : (⟨S10000x256, .f32⟩ : BufTy).Contents (Elt F) :=
  hostLayer A (Host.dotGeneral dot_S10000x256_S256x256_S10000x256_1_0_0_1_n_n none (hostLayer A (support1 a0 a1 w1) b1) w2) b2

attribute [local irreducible] Host.reduce Host.gather in
set_option maxRecDepth 8192 in
set_option maxHeartbeats 1000000 in
/-- The fold of @main's operations, read at the result buffer, is `refOut` of the argument buffers' contents. -/
theorem out_eq (V : Valuation τ sig (Elt F)) :
    after ops V (main_v20 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  after_results_simp
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results
theorem arg6_eq (V : Valuation τ sig (Elt F)) : after ops V (main_arg6 : DevRef τ sig) = V (main_arg6 : DevRef τ sig) := by
  after_results

/-- The run, read: the result buffer at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v20).trans (out_eq _), (h c main_arg0).trans (arg0_eq _), (h c main_arg1).trans (arg1_eq _),
       (h c main_arg2).trans (arg2_eq _), (h c main_arg3).trans (arg3_eq _), (h c main_arg4).trans (arg4_eq _),
       (h c main_arg5).trans (arg5_eq _), (h c main_arg6).trans (arg6_eq _)⟩)
    (run_bufs m ρ)

/-- At the ideal values the host's layer is the layer function. -/
theorem hostLayer_eq (A : FVec Ideal S10000x10000 .f32) (S : FVec Ideal S10000x256 .f32) (b : FVec Ideal S256 .f32) :
    hostLayer (F := Ideal) A S b = layer A S b :=
  host_eq dot_S10000x10000_S10000x256_S10000x256_1_0_0_1_n_n rfl bcast_S256_S1x256_1 bcast_S1x256_S10000x256_0_1 bcast_S_S10000x256 A S b

end Cert.ReferenceIdeal.Val

end
-- ==== Proof.Bridge.lean ====
/-
  The kernel program's term and the reference's term are one function of the seven arguments.

  Both begin with the same host operations (`support1`: word rows gathered from the embedding table, the maximum over
  each node's words, the product with `W1`) and both multiply the first layer by `W2` with the same `dot_general`; the
  two programs print these with dimension records of their own, equal field by field. Each of the two layers is the
  layer function on both sides (the kernel's by its regions, the host's by `hostLayer_eq`), and the bias the kernel
  recasts as one row reads back, entry by entry, as the bias.
-/
import proofs.«173552_j53970559041618_1_alg».proof.Proof.KernelValue
import proofs.«173552_j53970559041618_1_alg».proof.Proof.RefValue

noncomputable section

namespace Cert.Bridge

open Idealize.ShloMosaic Idealize.ShloMosaic.ValueIdx Cert.Layer

/-- A vector recast as a one-row matrix reads, at column `j` of that row, the vector's entry `j`. -/
theorem row_entries {n : Nat} (b : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ b h (ix2 (0 : Fin 1) (j 0))) = b := by
  funext j
  obtain ⟨a, rfl⟩ : ∃ a : Fin n, j = ix1 a := ⟨j 0, eq_ix1 j⟩
  refine shapeCast_apply b h (ix2 (0 : Fin 1) a) (ix1 a) ?_
  rw [Shape.rowMajor_val_two, Shape.rowMajor_val_one]
  show a.val = 0 * n + a.val
  omega

attribute [local irreducible] Host.reduce Host.gather in
/-- The shared front of the two programs, printed with each program's own records, is one term. -/
theorem support_eq (a0 : (⟨Cert.KernelIdeal.S10001x8, .i32⟩ : BufTy).Contents (Elt Ideal)) (a1 : FVec Ideal Cert.KernelIdeal.S50000x300 .f32)
    (w1 : FVec Ideal Cert.KernelIdeal.S300x256 .f32) :
    Cert.KernelIdeal.Val.support1 (F := Ideal) a0 a1 w1 = Cert.ReferenceIdeal.Val.support1 (F := Ideal) a0 a1 w1 := rfl

/-- The two programs' records for the product with `W2` are one. -/
theorem dot2_eq : Cert.KernelIdeal.dot_S10000x256_S256x256_S10000x256_1_0_0_1_n_n
    = Cert.ReferenceIdeal.dot_S10000x256_S256x256_S10000x256_1_0_0_1_n_n := rfl

/-- THE TWO RESULTS ARE ONE FUNCTION of the arguments. -/
theorem out_eq (a0 : (⟨Cert.KernelIdeal.S10001x8, .i32⟩ : BufTy).Contents (Elt Ideal)) (a1 : FVec Ideal Cert.KernelIdeal.S50000x300 .f32)
    (A : FVec Ideal Cert.KernelIdeal.S10000x10000 .f32) (w1 : FVec Ideal Cert.KernelIdeal.S300x256 .f32) (b1 : FVec Ideal Cert.KernelIdeal.S256 .f32)
    (w2 : FVec Ideal Cert.KernelIdeal.S256x256 .f32) (b2 : FVec Ideal Cert.KernelIdeal.S256 .f32) :
    Cert.ReferenceIdeal.Val.refOut (F := Ideal) a0 a1 A w1 b1 w2 b2 = Cert.KernelIdeal.Val.kOut a0 a1 A w1 b1 w2 b2 := by
  unfold Cert.KernelIdeal.Val.kOut
  rw [row_entries, row_entries, support_eq, dot2_eq]
  show Cert.ReferenceIdeal.Val.hostLayer (F := Ideal) A _ b2 = _
  rw [Cert.ReferenceIdeal.Val.hostLayer_eq, Cert.ReferenceIdeal.Val.hostLayer_eq]

end Cert.Bridge

end
-- ==== Proof.lean ====
/-
  The certificate of a two-layer graph convolution: a Pallas kernel that computes each layer's
  `leaky(adj · support + b)` two hundred rows at a time (the adjacency narrowed to half width for the matrix unit, the
  support held narrow, accumulation in single precision), called twice from host code that builds the node embeddings
  and the two supports — against the plain jnp reference `leaky(adj @ (x @ W) + b)`, twice.

  The three frames. The kernel program at the machine's words and its idealization each run through their two
  pipelined regions without a fault and leave the seven argument arrays as launched (the generated frame certificates).
  The reference is a straight line of thirty-six host operations once its two calls of `leaky_relu` are written out
  (Proof/RefRun.lean); no operation writes an argument.

  The idealization rewrote nothing, so there is nothing to preserve.

  The values. At the ideal values a change of float format is the identity and a matrix product accumulated into zero
  is the plain sum of products, so what each pallas_call leaves in its output array is, row block by row block, the
  layer function `leaky (∑ c, A[a, c] · S[c, b] + B[b])` of the arrays it was entered with (Proof/Layer.lean,
  Proof/Region0.lean, Proof/Region1.lean), and the host's `dot_general` + broadcast + `leaky_relu` is the same
  function. The host operations before and between the calls are the reference's own, so the two programs' results are
  one term of the arguments (Proof/KernelValue.lean, Proof/RefValue.lean, Proof/Bridge.lean). The precondition
  (finite inputs) is never opened: the two sides are the same sums of the same products, in the same order.
-/
import proofs.«173552_j53970559041618_1_alg».proof.Defs
import proofs.«173552_j53970559041618_1_alg».proof.Proof.Gen.Kernel
import proofs.«173552_j53970559041618_1_alg».proof.Proof.Gen.Kernel.Skeleton
import proofs.«173552_j53970559041618_1_alg».proof.Proof.Gen.Kernel.Launch
import proofs.«173552_j53970559041618_1_alg».proof.Proof.Gen.Kernel.Points
import proofs.«173552_j53970559041618_1_alg».proof.Proof.Gen.Kernel.Frame
import proofs.«173552_j53970559041618_1_alg».proof.Proof.Gen.KernelIdeal
import proofs.«173552_j53970559041618_1_alg».proof.Proof.Gen.KernelIdeal.Skeleton
import proofs.«173552_j53970559041618_1_alg».proof.Proof.Gen.KernelIdeal.Launch
import proofs.«173552_j53970559041618_1_alg».proof.Proof.Gen.KernelIdeal.Points
import proofs.«173552_j53970559041618_1_alg».proof.Proof.Gen.KernelIdeal.Frame
import proofs.«173552_j53970559041618_1_alg».proof.Proof.Gen.ReferenceIdeal
import proofs.«173552_j53970559041618_1_alg».proof.Proof.Gen.Pre_finite_inputs
import proofs.«173552_j53970559041618_1_alg».proof.Proof.KernelValue
import proofs.«173552_j53970559041618_1_alg».proof.Proof.RefValue
import proofs.«173552_j53970559041618_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Val.run (F := Ideal) m ρ)

theorem preserves : Cert.preserves_Kernel_KernelIdeal := trivial

/-- Both programs end with the result buffer at `kOut` of the arguments, on which the two memories agree. -/
theorem algebraic : Cert.algebraic_KernelIdeal_ReferenceIdeal := by
  intro m ρ m' ρ' _ hagree
  refine ⟨fun c => Cert.KernelIdeal.Val.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Val.run m ρ, ?_⟩
  refine (θ_run Cert.ReferenceIdeal.defs _ _).mono (fun _ h c => ⟨(h c).1.trans ?_, (h c).2⟩)
    (Cert.ReferenceIdeal.Val.run (F := Ideal) m' ρ')
  obtain ⟨e0, e1, e2, e3, e4, e5, e6⟩ := hagree c
  rw [e0, e1, e2, e3, e4, e5, e6]
  exact Cert.Bridge.out_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
